-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256x32x32 : Shape := ⟨4, ![256, 256, 32, 32]⟩
abbrev S_ : Shape := ⟨0, ![]⟩

class Facts : Prop where
  bcast_S_S256x256x32x32 : S_.BroadcastsInDim S256x256x32x32 (![] : Fin 0 → Fin S256x256x32x32.rank)
  reducesTo_S256x256x32x32_S_d0_1_2_3 : S256x256x32x32.ReducesTo [0, 1, 2, 3] S_
  h_S_ : 0 < S_.numel

variable [Facts]

def fn {F : FTy → Type} [FloatOps F] (main_arg0 : FVec F S256x256x32x32 .f32) : IVec S_ 1 :=
  let main_v0 : FVec F S256x256x32x32 .f32 := Host.absf main_arg0
  let main_cst : FVec F S_ .f32 := constant S_ .f32 0x7F800000#32
  let main_v1 : FVec F S256x256x32x32 .f32 := broadcastInDim S256x256x32x32 ![] bcast_S_S256x256x32x32 main_cst
  let main_v2 : IVec S256x256x32x32 1 := cmpf .olt main_v0 main_v1
  let main_c : IVec S_ 1 := constantI S_ 1 1#1
  let main_v3 : IVec S_ 1 := (fun x v => Host.reduce IntOp.andi x v reducesTo_S256x256x32x32_S_d0_1_2_3 h_S_) main_v2 main_c
  main_v3
-- ==== Kernel.lean ====
abbrev S256x256x32x32 : Shape := ⟨4, ![256, 256, 32, 32]⟩
abbrev S256x256x1024 : Shape := ⟨3, ![256, 256, 1024]⟩
abbrev S8x256x1024 : Shape := ⟨3, ![8, 256, 1024]⟩
abbrev S8x1024 : Shape := ⟨2, ![8, 1024]⟩
abbrev S8x1x1024 : Shape := ⟨3, ![8, 1, 1024]⟩
abbrev S8x1 : Shape := ⟨2, ![8, 1]⟩
abbrev S8x1x1 : Shape := ⟨3, ![8, 1, 1]⟩

abbrev nBuf : Space → Nat
  | .hbm => 4
  | .vmem => 4
  | .smem => 0
  | _ => 0

abbrev bufTy : (tb : Table) → Fin (tcTables nBuf tb) → BufTy
  | .hbm, ⟨0, _⟩ => ⟨S256x256x32x32, .f32⟩
  | .hbm, ⟨1, _⟩ => ⟨S256x256x1024, .f32⟩
  | .hbm, ⟨2, _⟩ => ⟨S256x256x1024, .f32⟩
  | .hbm, ⟨3, _⟩ => ⟨S256x256x32x32, .f32⟩
  | .local _ .vmem, ⟨0, _⟩ => ⟨S8x256x1024, .f32⟩
  | .local _ .vmem, ⟨1, _⟩ => ⟨S8x256x1024, .f32⟩
  | .local _ .vmem, ⟨2, _⟩ => ⟨S8x256x1024, .f32⟩
  | .local _ .vmem, ⟨3, _⟩ => ⟨S8x256x1024, .f32⟩
  | _, _ => ⟨S256x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S256x256x32x32_S256x256x1024 : S256x256x32x32.ShapeCasts S256x256x1024
  inb_S8x256x1024_S8x256x1024_0_0_0 : ∀ a, (![0, 0, 0] : Fin 3 → Nat) a + S8x256x1024.size a ≤ S8x256x1024.size a
  h_S8x256x1024 : 0 < S8x256x1024.numel
  shapeCasts_S8x256x1024_S8x256x1024 : S8x256x1024.ShapeCasts S8x256x1024
  reduces_S8x256x1024_S8x1024 : S8x256x1024.Reduces [1] S8x1024
  shapeCasts_S8x1024_S8x1x1024 : S8x1024.ShapeCasts S8x1x1024
  reduces_S8x1x1024_S8x1 : S8x1x1024.Reduces [2] S8x1
  shapeCasts_S8x1_S8x1x1 : S8x1.ShapeCasts S8x1x1
  broadcasts_S8x1x1_S8x256x1024 : S8x1x1.Broadcasts S8x256x1024
  shapeCasts_S256x256x1024_S256x256x32x32 : S256x256x1024.ShapeCasts S256x256x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x1024.size a ≤ S256x256x1024.size a
  hwx0_0 : ∀ i : grid0.Coords, EltTy.bits .f32 = 32 ∨ (Rect.block (s := S256x256x1024) S8x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x1024.size a ≤ S256x256x1024.size a
  hwx0_1 : ∀ i : grid0.Coords, EltTy.bits .f32 = 32 ∨ (Rect.block (s := S256x256x1024) S8x256x1024.size (cc0_transform_1 i) (hinb0_1 i)).WholeWords (EltTy.packing .f32)

variable [Facts₀]

abbrev win0_0 : Pipeline.Window sig grid0 :=
  Pipeline.Window.ofSpec (Memref.whole main_v0) S8x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x256x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S256x256x32x32 : Shape := ⟨4, ![256, 256, 32, 32]⟩
abbrev S256x8x32768 : Shape := ⟨3, ![256, 8, 32768]⟩
abbrev S8x8x32768 : Shape := ⟨3, ![8, 8, 32768]⟩
abbrev S8x8 : Shape := ⟨2, ![8, 8]⟩
abbrev S8x8x1 : Shape := ⟨3, ![8, 8, 1]⟩
abbrev S8x1 : Shape := ⟨2, ![8, 1]⟩
abbrev S8x1x1 : Shape := ⟨3, ![8, 1, 1]⟩

abbrev nBuf : Space → Nat
  | .hbm => 4
  | .vmem => 4
  | .smem => 0
  | _ => 0

abbrev bufTy : (tb : Table) → Fin (tcTables nBuf tb) → BufTy
  | .hbm, ⟨0, _⟩ => ⟨S256x256x32x32, .f32⟩
  | .hbm, ⟨1, _⟩ => ⟨S256x8x32768, .f32⟩
  | .hbm, ⟨2, _⟩ => ⟨S256x8x32768, .f32⟩
  | .hbm, ⟨3, _⟩ => ⟨S256x256x32x32, .f32⟩
  | .local _ .vmem, ⟨0, _⟩ => ⟨S8x8x32768, .f32⟩
  | .local _ .vmem, ⟨1, _⟩ => ⟨S8x8x32768, .f32⟩
  | .local _ .vmem, ⟨2, _⟩ => ⟨S8x8x32768, .f32⟩
  | .local _ .vmem, ⟨3, _⟩ => ⟨S8x8x32768, .f32⟩
  | _, _ => ⟨S256x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x8x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S256x256x32x32_S256x8x32768 : S256x256x32x32.ShapeCasts S256x8x32768
  inb_S8x8x32768_S8x8x32768_0_0_0 : ∀ a, (![0, 0, 0] : Fin 3 → Nat) a + S8x8x32768.size a ≤ S8x8x32768.size a
  h_S8x8x32768 : 0 < S8x8x32768.numel
  shapeCasts_S8x8x32768_S8x8x32768 : S8x8x32768.ShapeCasts S8x8x32768
  reduces_S8x8x32768_S8x8 : S8x8x32768.Reduces [2] S8x8
  shapeCasts_S8x8_S8x8x1 : S8x8.ShapeCasts S8x8x1
  reduces_S8x8x1_S8x1 : S8x8x1.Reduces [1] S8x1
  shapeCasts_S8x1_S8x1x1 : S8x1.ShapeCasts S8x1x1
  broadcasts_S8x1x1_S8x8x32768 : S8x1x1.Broadcasts S8x8x32768
  shapeCasts_S256x8x32768_S256x256x32x32 : S256x8x32768.ShapeCasts S256x256x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x8x32768.size a ≤ S256x8x32768.size a
  hwx0_0 : ∀ i : grid0.Coords, EltTy.bits .f32 = 32 ∨ (Rect.block (s := S256x8x32768) S8x8x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x8x32768.size a ≤ S256x8x32768.size a
  hwx0_1 : ∀ i : grid0.Coords, EltTy.bits .f32 = 32 ∨ (Rect.block (s := S256x8x32768) S8x8x32768.size (cc0_transform_1 i) (hinb0_1 i)).WholeWords (EltTy.packing .f32)

variable [Facts₀]

abbrev win0_0 : Pipeline.Window sig grid0 :=
  Pipeline.Window.ofSpec (Memref.whole main_v0) S8x8x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x8x32768.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== Proof.RowNorm.lean ====
/-
  Layer normalisation of one batch row, on the extended reals.

  A row has 262144 entries. From the row's sum `S` and its sum of squares `Q` both programs form the mean
  `S · 2⁻¹⁸`, the variance `max (Q · 2⁻¹⁸ − mean²) 0` and the factor `(variance + ε)^(-1/2)`. One program then writes
  `a · factor + (0 − mean) · factor` for an entry `a`, the other `(a − mean) · factor`. On the extended reals the
  product does not distribute over a sum in general (`(1 + (−1)) · ⊤ = 0` while `1 · ⊤ + (−1) · ⊤ = ⊥`), but it
  does when every quantity involved is a real number: then the mean is real, the variance is a nonnegative real,
  `variance + ε` is a positive real, its inverse square root is real, and the two forms are the two sides of
  `(a − μ) · f = a · f + (0 − μ) · f` in the real numbers.
-/
import Idealize.ShloMosaic.PureOps.Ideal
import Idealize.ShloMosaic.PureOps.Ideal.Laws

noncomputable section

namespace Cert.RowNorm

open Idealize.ShloMosaic

/-- The reciprocal of the row length, `2⁻¹⁸`, as the pattern both programs carry. -/
def invN : EReal := Ideal.ofBits .f32 0x36800000#32

/-- The stabilising constant `ε` as the pattern both programs carry. -/
def eps : EReal := Ideal.ofBits .f32 0x3727C5AC#32

/-- The pattern of zero, as both programs carry it. -/
def zero : EReal := Ideal.ofBits .f32 0x00000000#32

/-- The row's mean from its sum. -/
def mean (S : EReal) : EReal := S * invN

/-- The row's factor `(max (Q · 2⁻¹⁸ − mean²) 0 + ε)^(-1/2)` from its sum and its sum of squares. -/
def factor (S Q : EReal) : EReal := Ideal.rsqrt (max (Q * invN - mean S * mean S) zero + eps)

/-- An entry scaled, then shifted by the scaled negated mean. -/
def shifted (a S Q : EReal) : EReal := a * factor S Q + (zero - mean S) * factor S Q

/-- An entry centred, then scaled. -/
def centred (a S Q : EReal) : EReal := (a - mean S) * factor S Q

/-- A 32-bit pattern whose exponent field is not all ones denotes a real number. -/
theorem ofBits_f32_real (b : BitVec 32) (h : (b.extractLsb' 23 8).toNat ≠ 2 ^ 8 - 1) :
    ∃ r : ℝ, Ideal.ofBits .f32 b = (r : EReal) := by
  show ∃ r : ℝ, Ideal.ieee 8 23 b = (r : EReal)
  unfold Ideal.ieee
  dsimp only
  rw [if_neg h]
  split
  · exact ⟨_, rfl⟩
  · exact ⟨_, rfl⟩

theorem zero_eq : zero = 0 := Ideal.ofBits_zero_f32

theorem invN_real : ∃ r : ℝ, invN = (r : EReal) := ofBits_f32_real _ (by decide)

theorem eps_real : ∃ r : ℝ, eps = (r : EReal) := ofBits_f32_real _ (by decide)

/-- `ε` is positive. -/
theorem eps_pos : (0 : EReal) < eps := by
  unfold eps
  simp [Ideal.ofBits, Ideal.ieee, -EReal.coe_mul]

/-- The inverse square root of a positive real is a real. -/
theorem rsqrt_pos_real {r : ℝ} (h : 0 < r) : Ideal.rsqrt (r : EReal) = (((Real.sqrt r)⁻¹ : ℝ) : EReal) := by
  rw [Ideal.rsqrt_coe, if_neg (not_lt.mpr h.le), if_neg h.ne']

/-- For a real sum and a real sum of squares the factor is a real: the clamped variance plus `ε` is positive. -/
theorem factor_real (s q : ℝ) : ∃ f : ℝ, factor (s : EReal) (q : EReal) = (f : EReal) := by
  obtain ⟨c, hc⟩ := invN_real
  obtain ⟨e, he⟩ := eps_real
  have hepos : 0 < e := by
    have h := eps_pos
    rw [he] at h
    exact_mod_cast h
  unfold factor mean
  rw [hc, he, zero_eq, ← EReal.coe_zero, ← EReal.coe_mul, ← EReal.coe_mul, ← EReal.coe_mul, ← EReal.coe_sub,
    ← EReal.coe_strictMono.monotone.map_max, ← EReal.coe_add,
    rsqrt_pos_real (add_pos_of_nonneg_of_pos (le_max_right _ _) hepos)]
  exact ⟨_, rfl⟩

/-- THE LAW: for a real entry, a real sum and a real sum of squares, scaling then shifting by the scaled negated mean
    is centring then scaling: `a · f + (0 − μ) · f = (a − μ) · f` in the reals. -/
theorem shifted_eq_centred (a s q : ℝ) :
    shifted (a : EReal) (s : EReal) (q : EReal) = centred (a : EReal) (s : EReal) (q : EReal) := by
  obtain ⟨f, hf⟩ := factor_real s q
  obtain ⟨c, hc⟩ := invN_real
  unfold shifted centred mean
  rw [hf, hc, zero_eq, ← EReal.coe_zero]
  norm_cast
  ring

/-- A finite sum of real numbers is a real number. -/
theorem sum_real {ι : Type*} [Fintype ι] (g : ι → EReal) (h : ∀ i, ∃ r : ℝ, g i = (r : EReal)) :
    ∃ r : ℝ, ∑ i, g i = (r : EReal) := by
  classical
  choose f hf using h
  refine ⟨∑ i, f i, ?_⟩
  rw [Finset.sum_congr rfl fun i _ => hf i]
  refine Finset.induction_on (Finset.univ : Finset ι) (by simp) ?_
  intro i s hi ih
  rw [Finset.sum_insert hi, Finset.sum_insert hi, ih, EReal.coe_add]

/-- THE LAW ON A ROW: when every entry of a row is real, each entry scaled and shifted is that entry centred and
    scaled, the sum and the sum of squares being those of the row. -/
theorem row_shifted_eq_centred {ι : Type*} [Fintype ι] (x : ι → EReal) (h : ∀ i, ∃ r : ℝ, x i = (r : EReal)) (n : ι) :
    shifted (x n) (∑ i, x i) (∑ i, x i * x i) = centred (x n) (∑ i, x i) (∑ i, x i * x i) := by
  obtain ⟨a, ha⟩ := h n
  obtain ⟨s, hs⟩ := sum_real x h
  obtain ⟨q, hq⟩ := sum_real (fun i => x i * x i) fun i => by
    obtain ⟨r, hr⟩ := h i
    exact ⟨r * r, by rw [hr, EReal.coe_mul]⟩
  rw [ha, hs, hq]
  exact shifted_eq_centred a s q

end Cert.RowNorm

end
-- ==== Proof.LibBlockSum.lean ====
/-
  Sums over blocks of consecutive indices, and running sums: a sum over B blocks of S consecutive indices is the sum
  over all B·S indices; a sequence that starts at its first term and adds one more term at each step is the partial sum.
-/
import Mathlib.Algebra.BigOperators.Fin
import Mathlib.Data.Fintype.BigOperators
import Mathlib.Logic.Equiv.Fin.Basic

namespace Cert.BlockSum

open scoped BigOperators

/-- The `r`-th index of the `b`-th block of `S` consecutive indices, among `B` blocks, is below `B * S`. -/
theorem block_lt {B S : ℕ} (b : Fin B) (r : Fin S) : S * b.val + r.val < B * S :=
  calc S * b.val + r.val < S * b.val + S := Nat.add_lt_add_left r.isLt _
    _ = S * (b.val + 1) := (Nat.mul_succ _ _).symm
    _ ≤ S * B := Nat.mul_le_mul_left _ b.isLt
    _ = B * S := Nat.mul_comm _ _

/-- A sum over `B` blocks of `S` consecutive indices is the sum over all `B * S` indices: every index below
    `B * S` is `S * b + r` for exactly one block `b` and one offset `r`. -/
theorem sum_blocks {M : Type*} [AddCommMonoid M] (B S : ℕ) (f : Fin (B * S) → M) :
    ∑ b : Fin B, ∑ r : Fin S, f ⟨S * b.val + r.val, block_lt b r⟩ = ∑ n : Fin (B * S), f n := by
  rw [← finProdFinEquiv.sum_comp, Fintype.sum_prod_type]
  refine Finset.sum_congr rfl fun b _ => Finset.sum_congr rfl fun r _ => ?_
  exact congrArg f (Fin.ext (Nat.add_comm _ _))

/-- Twelve blocks of 1024 consecutive indices make up the 12288 indices. -/
theorem sum_12x1024 {M : Type*} [AddCommMonoid M] (f : Fin 12288 → M) :
    ∑ b : Fin 12, ∑ r : Fin 1024, f ⟨1024 * b.val + r.val, by omega⟩ = ∑ n : Fin 12288, f n :=
  sum_blocks 12 1024 f

/-- Four blocks of 1536 consecutive indices make up the 6144 indices. -/
theorem sum_4x1536 {M : Type*} [AddCommMonoid M] (f : Fin 6144 → M) :
    ∑ b : Fin 4, ∑ r : Fin 1536, f ⟨1536 * b.val + r.val, by omega⟩ = ∑ n : Fin 6144, f n :=
  sum_blocks 4 1536 f

/-- A running sum from its first term: if `a 0 = g 0` and `a (j + 1) = a j + g (j + 1)` for every `j`, then
    `a j` is the sum of `g` over the first `j + 1` indices. -/
theorem running_sum {M : Type*} [AddCommMonoid M] (a g : ℕ → M) (h0 : a 0 = g 0)
    (hs : ∀ j, a (j + 1) = a j + g (j + 1)) (j : ℕ) : a j = ∑ i ∈ Finset.range (j + 1), g i := by
  induction j with
  | zero => rw [h0, Finset.sum_range_one]
  | succ j ih => rw [hs, ih, Finset.sum_range_succ _ (j + 1)]

/-- The sum over the first twelve naturals is the sum over `Fin 12`. -/
theorem sum_range_12 {M : Type*} [AddCommMonoid M] (g : ℕ → M) :
    ∑ i ∈ Finset.range 12, g i = ∑ b : Fin 12, g b.val :=
  Finset.sum_range g

/-- The sum over the first four naturals is the sum over `Fin 4`. -/
theorem sum_range_4 {M : Type*} [AddCommMonoid M] (g : ℕ → M) :
    ∑ i ∈ Finset.range 4, g i = ∑ b : Fin 4, g b.val :=
  Finset.sum_range g

end Cert.BlockSum
-- ==== Proof.RowNormArray.lean ====
/-
  Layer normalisation of an array of 256 batch rows, each of 262144 entries, in three layouts of the same
  row-major order: [256, 256, 32, 32] (the argument and the result), [256, 256, 1024] and [256, 8, 32768] (the two
  views the programs work on). Entry `n` of batch row `b` sits at row-major position `262144 · b + n` in all
  three.

  A sum over the two inner axes of either three-axis view, in either order, is the sum over the row's 262144
  entries: addition on the extended reals is commutative and associative, so the order of summation and the way the
  row is cut into 256 runs of 1024 or 8 runs of 32768 do not matter. Hence normalising the [256, 256, 1024] view
  and normalising the [256, 8, 32768] view, each read back as [256, 256, 32, 32], differ only in the last step
  (scale-then-shift against centre-then-scale), and that step agrees when every entry is a real number.
-/
import Idealize.ShloMosaic.Lib.ValueIdx
import Idealize.ShloMosaic.Lib.Pipeline.Value
import proofs.«168734_g2000209400627767_pallasbulk_1259_4_alg».proof.Proof.RowNorm
import proofs.«168734_g2000209400627767_pallasbulk_1259_4_alg».proof.Proof.LibBlockSum

noncomputable section

namespace Cert.RowNorm

open Idealize.ShloMosaic Idealize.ShloMosaic.ValueIdx

/-- The argument's and the result's shape. -/
abbrev A4 : Shape := ⟨4, ![256, 256, 32, 32]⟩
/-- The view cut into 256 runs of 1024 per batch row. -/
abbrev K3 : Shape := ⟨3, ![256, 256, 1024]⟩
/-- The view cut into 8 runs of 32768 per batch row. -/
abbrev R3 : Shape := ⟨3, ![256, 8, 32768]⟩

theorem numel_A4 : A4.numel = 256 * 262144 := by decide

/-- Entry `n` of batch row `b`: the entry at row-major position `262144 · b + n`. -/
def rowEntry (x : A4.Idx → EReal) (b : Fin 256) (n : Fin 262144) : EReal :=
  x (A4.rowMajor.symm ⟨262144 * b.val + n.val, by rw [numel_A4]; omega⟩)

/-- The sum over batch row `b` of `g` of each entry. -/
def rowSum (g : EReal → EReal) (x : A4.Idx → EReal) (b : Fin 256) : EReal := ∑ n : Fin 262144, g (rowEntry x b n)

/-- The array normalised row by row, each entry scaled and then shifted. -/
def shiftedArray (x : A4.Idx → EReal) : A4.Idx → EReal := fun i =>
  shifted (x i) (rowSum id x (i 0)) (rowSum (fun a => a * a) x (i 0))

/-- The array normalised row by row, each entry centred and then scaled. -/
def centredArray (x : A4.Idx → EReal) : A4.Idx → EReal := fun i =>
  centred (x i) (rowSum id x (i 0)) (rowSum (fun a => a * a) x (i 0))

/-- When every entry is a real number the two normalised arrays are equal. -/
theorem shiftedArray_eq_centredArray (x : A4.Idx → EReal) (h : ∀ i, ∃ r : ℝ, x i = (r : EReal)) :
    shiftedArray x = centredArray x := by
  funext i
  obtain ⟨a, ha⟩ := h i
  obtain ⟨s, hs⟩ := sum_real (fun n : Fin 262144 => id (rowEntry x (i 0) n)) fun n => h _
  obtain ⟨q, hq⟩ := sum_real (fun n : Fin 262144 => (fun a => a * a) (rowEntry x (i 0) n)) fun n => by
    obtain ⟨r, hr⟩ := h (A4.rowMajor.symm ⟨262144 * (i 0).val + n.val, by rw [numel_A4]; have : (i 0).val < 256 := (i 0).isLt; omega⟩)
    exact ⟨r * r, by show rowEntry x (i 0) n * rowEntry x (i 0) n = _; unfold rowEntry; rw [hr, EReal.coe_mul]⟩
  show shifted (x i) (rowSum id x (i 0)) (rowSum (fun a => a * a) x (i 0))
    = centred (x i) (rowSum id x (i 0)) (rowSum (fun a => a * a) x (i 0))
  unfold rowSum
  rw [ha, hs, hq]
  exact shifted_eq_centred a s q

/-- 256 runs of 1024 consecutive entries make up the row. -/
theorem sum_256x1024 {M : Type*} [AddCommMonoid M] (f : Fin 262144 → M) :
    ∑ s : Fin 256, ∑ c : Fin 1024, f ⟨1024 * s.val + c.val, by omega⟩ = ∑ n : Fin 262144, f n :=
  Cert.BlockSum.sum_blocks 256 1024 f

/-- 8 runs of 32768 consecutive entries make up the row. -/
theorem sum_8x32768 {M : Type*} [AddCommMonoid M] (f : Fin 262144 → M) :
    ∑ r : Fin 8, ∑ c : Fin 32768, f ⟨32768 * r.val + c.val, by omega⟩ = ∑ n : Fin 262144, f n :=
  Cert.BlockSum.sum_blocks 8 32768 f

/-- In the [256, 256, 1024] view, the sum over the last axis of the sums over the middle axis is the row's sum. -/
theorem rowSum_K3 (g : EReal → EReal) (x : A4.Idx → EReal) (h : A4.ShapeCasts K3) (b : Fin 256) :
    ∑ c : Fin 1024, ∑ s : Fin 256, g (shapeCast K3 x h (ix3 b s c)) = rowSum g x b := by
  rw [Finset.sum_comm]
  unfold rowSum
  rw [← sum_256x1024 (fun n => g (rowEntry x b n))]
  refine Finset.sum_congr rfl fun s _ => Finset.sum_congr rfl fun c _ => congrArg g ?_
  unfold rowEntry
  refine shapeCast_apply x h (ix3 b s c) _ ?_
  rw [Equiv.apply_symm_apply, Shape.rowMajor_val_three]
  show 262144 * b.val + (1024 * s.val + c.val) = (b.val * 256 + s.val) * 1024 + c.val
  omega

/-- In the [256, 8, 32768] view, the sum over the middle axis of the sums over the last axis is the row's sum. -/
theorem rowSum_R3 (g : EReal → EReal) (x : A4.Idx → EReal) (h : A4.ShapeCasts R3) (b : Fin 256) :
    ∑ r : Fin 8, ∑ c : Fin 32768, g (shapeCast R3 x h (ix3 b r c)) = rowSum g x b := by
  unfold rowSum
  rw [← sum_8x32768 (fun n => g (rowEntry x b n))]
  refine Finset.sum_congr rfl fun r _ => Finset.sum_congr rfl fun c _ => congrArg g ?_
  unfold rowEntry
  refine shapeCast_apply x h (ix3 b r c) _ ?_
  rw [Equiv.apply_symm_apply, Shape.rowMajor_val_three]
  show 262144 * b.val + (32768 * r.val + c.val) = (b.val * 8 + r.val) * 32768 + c.val
  omega

/-- The [256, 256, 1024] view normalised: each entry scaled and shifted by its batch row's sums, taken over the last
    axis of the sums over the middle axis. -/
def shiftedK3 (X : K3.Idx → EReal) : K3.Idx → EReal := fun k =>
  shifted (X k) (∑ c : Fin 1024, ∑ s : Fin 256, X (ix3 (k 0) s c))
    (∑ c : Fin 1024, ∑ s : Fin 256, X (ix3 (k 0) s c) * X (ix3 (k 0) s c))

/-- The [256, 8, 32768] view normalised: each entry centred and scaled by its batch row's sums, taken over the middle
    axis of the sums over the last axis. -/
def centredR3 (X : R3.Idx → EReal) : R3.Idx → EReal := fun k =>
  centred (X k) (∑ r : Fin 8, ∑ c : Fin 32768, X (ix3 (k 0) r c))
    (∑ r : Fin 8, ∑ c : Fin 32768, X (ix3 (k 0) r c) * X (ix3 (k 0) r c))

/-- The argument viewed as [256, 256, 1024], normalised there, and viewed back is the array normalised row by row. -/
theorem shiftedK3_cast (x : A4.Idx → EReal) (h : A4.ShapeCasts K3) (h' : K3.ShapeCasts A4) :
    shapeCast A4 (shiftedK3 (shapeCast K3 x h)) h' = shiftedArray x := by
  funext i
  show shiftedK3 (shapeCast K3 x h) (Shape.reshapeEquiv h' i) = shiftedArray x i
  have hk : (K3.rowMajor (Shape.reshapeEquiv h' i) : ℕ) = A4.rowMajor i := Shape.rowMajor_reshapeEquiv h' i
  generalize Shape.reshapeEquiv h' i = k at hk ⊢
  rw [Shape.rowMajor_val_three, Shape.rowMajor_val_four] at hk
  have hk' : ((k 0).val * 256 + (k 1).val) * 1024 + (k 2).val
      = (((i 0).val * 256 + (i 1).val) * 32 + (i 2).val) * 32 + (i 3).val := hk
  have b1 : (k 1).val < 256 := (k 1).isLt
  have b2 : (k 2).val < 1024 := (k 2).isLt
  have c1 : (i 1).val < 256 := (i 1).isLt
  have c2 : (i 2).val < 32 := (i 2).isLt
  have c3 : (i 3).val < 32 := (i 3).isLt
  have e0 : (k 0 : Fin 256) = (i 0 : Fin 256) := Fin.ext (by omega)
  have ex : shapeCast K3 x h k = x i :=
    shapeCast_apply x h k i (by rw [Shape.rowMajor_val_three, Shape.rowMajor_val_four]; exact hk'.symm)
  unfold shiftedK3 shiftedArray
  rw [ex, e0]
  exact congrArg₂ (shifted (x i)) (rowSum_K3 id x h (i 0)) (rowSum_K3 (fun a => a * a) x h (i 0))

/-- The argument viewed as [256, 8, 32768], normalised there, and viewed back is the array normalised row by row. -/
theorem centredR3_cast (x : A4.Idx → EReal) (h : A4.ShapeCasts R3) (h' : R3.ShapeCasts A4) :
    shapeCast A4 (centredR3 (shapeCast R3 x h)) h' = centredArray x := by
  funext i
  show centredR3 (shapeCast R3 x h) (Shape.reshapeEquiv h' i) = centredArray x i
  have hk : (R3.rowMajor (Shape.reshapeEquiv h' i) : ℕ) = A4.rowMajor i := Shape.rowMajor_reshapeEquiv h' i
  generalize Shape.reshapeEquiv h' i = k at hk ⊢
  rw [Shape.rowMajor_val_three, Shape.rowMajor_val_four] at hk
  have hk' : ((k 0).val * 8 + (k 1).val) * 32768 + (k 2).val
      = (((i 0).val * 256 + (i 1).val) * 32 + (i 2).val) * 32 + (i 3).val := hk
  have b1 : (k 1).val < 8 := (k 1).isLt
  have b2 : (k 2).val < 32768 := (k 2).isLt
  have c1 : (i 1).val < 256 := (i 1).isLt
  have c2 : (i 2).val < 32 := (i 2).isLt
  have c3 : (i 3).val < 32 := (i 3).isLt
  have e0 : (k 0 : Fin 256) = (i 0 : Fin 256) := Fin.ext (by omega)
  have ex : shapeCast R3 x h k = x i :=
    shapeCast_apply x h k i (by rw [Shape.rowMajor_val_three, Shape.rowMajor_val_four]; exact hk'.symm)
  unfold centredR3 centredArray
  rw [ex, e0]
  exact congrArg₂ (centred (x i)) (rowSum_R3 id x h (i 0)) (rowSum_R3 (fun a => a * a) x h (i 0))

end Cert.RowNorm

end
-- ==== Proof.KernelRow.lean ====
/-
  What the kernel's body computes from one block of 8 batch rows, [8, 256, 1024], read at an index.

  The body sums the block over its middle axis and then over its last axis, once for the entries and once for their
  squares, keeping the summed axes as unit axes; from the two [8, 1, 1] arrays of sums it forms, per batch row, the
  mean, the clamped variance and the inverse square root, spreads them back over the block, and writes
  entry · factor + (0 − mean) · factor. Read at (p, s, c) this is the entry at (p, s, c) scaled and shifted by the
  sums of batch row p of the block. When the block is rows 8T … 8T + 7 of a [256, 256, 1024] array, it is that
  array's normalised entry at (8T + p, s, c).
-/
import proofs.«168734_g2000209400627767_pallasbulk_1259_4_alg».proof.Proof.Gen.KernelIdeal.Skeleton
import proofs.«168734_g2000209400627767_pallasbulk_1259_4_alg».proof.Proof.RowNormArray
import Idealize.ShloMosaic.Lib.ValueIdx
import Idealize.ShloMosaic.Lib.Pipeline.Value
import Idealize.ShloMosaic.PureOps.Ideal.Laws

noncomputable section

namespace Cert.KernelIdeal.Row

open Idealize.ShloMosaic Idealize.ShloMosaic.ValueIdx Cert.KernelIdeal Cert.KernelIdeal.Gen Cert.RowNorm

/-- The sum over the middle axis of an [8, 256, 1024] block, read at (p, c). -/
theorem sum_mid (v : FVec Ideal S8x256x1024 .f32) (h : S8x256x1024.Reduces [1] S8x1024) (hφ : FKind.Formats .f32)
    (hacc : (0x00000000#32 : BitVec 32) = FKind.add.neutral .f32 hφ) (p : Fin 8) (c : Fin 1024) :
    multiReduction .add [1] S8x1024 v 0x00000000#32 h hφ hacc (ix2 p c) = ∑ s : Fin 256, v (ix3 p s c) := by
  refine (Ideal.multiReduction_add_single v _ h hφ hacc (ix2 p c)).trans ?_
  refine Finset.sum_congr rfl fun s _ => congrArg v ?_
  funext a
  match a with
  | ⟨0, _⟩ => rfl
  | ⟨1, _⟩ => rfl
  | ⟨2, _⟩ => rfl

/-- An [8, 1024] array viewed as [8, 1, 1024] reads (p, c) at (p, 0, c). -/
theorem cast_mid (v : FVec Ideal S8x1024 .f32) (h : S8x1024.ShapeCasts S8x1x1024) (p : Fin 8) (c : Fin 1024) :
    shapeCast S8x1x1024 v h (ix3 p 0 c) = v (ix2 p c) := by
  refine shapeCast_apply v h (ix3 p 0 c) (ix2 p c) ?_
  rw [Shape.rowMajor_val_two, Shape.rowMajor_val_three]
  show p.val * 1024 + c.val = (p.val * 1 + 0) * 1024 + c.val
  omega

/-- The sum over the last axis of an [8, 1, 1024] array, read at (p, 0). -/
theorem sum_last (v : FVec Ideal S8x1x1024 .f32) (h : S8x1x1024.Reduces [2] S8x1) (hφ : FKind.Formats .f32)
    (hacc : (0x00000000#32 : BitVec 32) = FKind.add.neutral .f32 hφ) (p : Fin 8) :
    multiReduction .add [2] S8x1 v 0x00000000#32 h hφ hacc (ix2 p 0) = ∑ c : Fin 1024, v (ix3 p 0 c) := by
  refine (Ideal.multiReduction_add_single v _ h hφ hacc (ix2 p 0)).trans ?_
  refine Finset.sum_congr rfl fun c _ => congrArg v ?_
  funext a
  match a with
  | ⟨0, _⟩ => rfl
  | ⟨1, _⟩ => rfl
  | ⟨2, _⟩ => rfl

/-- An [8, 1] array viewed as [8, 1, 1] reads (p, 0) at every index whose first coordinate is p. -/
theorem cast_last (v : FVec Ideal S8x1 .f32) (h : S8x1.ShapeCasts S8x1x1) (j : S8x1x1.Idx) :
    shapeCast S8x1x1 v h j = v (ix2 (j 0) 0) := by
  refine shapeCast_apply v h j (ix2 (j 0) 0) ?_
  rw [Shape.rowMajor_val_two, Shape.rowMajor_val_three]
  have h1 : (j 1).val < 1 := (j 1).isLt
  have h2 : (j 2).val < 1 := (j 2).isLt
  show (j 0).val * 1 + 0 = ((j 0).val * 1 + (j 1).val) * 1 + (j 2).val
  omega

/-- The sum over the last axis of the sums over the middle axis, kept as an [8, 1, 1] array: at an index whose first
    coordinate is p it is the sum of the block's entries (p, s, c) over all c and s. -/
theorem stat_apply (v : FVec Ideal S8x256x1024 .f32) (h1 : S8x256x1024.Reduces [1] S8x1024) (hφ1 : FKind.Formats .f32)
    (hacc1 : (0x00000000#32 : BitVec 32) = FKind.add.neutral .f32 hφ1) (h2 : S8x1024.ShapeCasts S8x1x1024)
    (h3 : S8x1x1024.Reduces [2] S8x1) (hφ3 : FKind.Formats .f32)
    (hacc3 : (0x00000000#32 : BitVec 32) = FKind.add.neutral .f32 hφ3) (h4 : S8x1.ShapeCasts S8x1x1) (j : S8x1x1.Idx) :
    shapeCast S8x1x1 (multiReduction .add [2] S8x1 (shapeCast S8x1x1024
        (multiReduction .add [1] S8x1024 v 0x00000000#32 h1 hφ1 hacc1) h2) 0x00000000#32 h3 hφ3 hacc3) h4 j
      = ∑ c : Fin 1024, ∑ s : Fin 256, v (ix3 (j 0) s c) := by
  refine (cast_last _ h4 j).trans ?_
  refine (sum_last _ h3 hφ3 hacc3 (j 0)).trans ?_
  refine Finset.sum_congr rfl fun c _ => ?_
  refine (cast_mid _ h2 (j 0) c).trans ?_
  exact sum_mid v h1 hφ1 hacc1 (j 0) c

/-- An [8, 1, 1] array spread over [8, 256, 1024] reads (p, 0, 0) at (p, s, c). -/
theorem spread_apply (v : FVec Ideal S8x1x1 .f32) (h : S8x1x1.Broadcasts S8x256x1024) (p : Fin 8) (s : Fin 256) (c : Fin 1024) :
    broadcastTo S8x256x1024 v h (ix3 p s c) = v (ix3 p 0 0) :=
  broadcastTo_apply v h (ix3 p s c) (ix3 p 0 0) (by
    intro a
    match a with
    | ⟨0, _⟩ => rfl
    | ⟨1, _⟩ => rfl
    | ⟨2, _⟩ => rfl)

set_option backward.isDefEq.respectTransparency.types false in
/-- The body's result at (p, s, c): the entry there, scaled and shifted by the sum and the sum of squares of the
    block's batch row p. -/
theorem pay_apply (x0 : FVec Ideal S8x256x1024 .f32) (p : Fin 8) (s : Fin 256) (c : Fin 1024) :
    k0_pay1 (F := Ideal) x0 (ix3 p s c)
      = shifted (x0 (ix3 p s c)) (∑ c' : Fin 1024, ∑ s' : Fin 256, x0 (ix3 p s' c'))
          (∑ c' : Fin 1024, ∑ s' : Fin 256, x0 (ix3 p s' c') * x0 (ix3 p s' c')) := by
  unfold k0_pay1
  dsimp only
  simp only [shapeCast_self]
  rw [funext (stat_apply x0 _ _ _ _ _ _ _ _), funext (stat_apply (mulf x0 x0) _ _ _ _ _ _ _ _)]
  rw [addf_apply, mulf_apply, spread_apply, spread_apply]
  rfl

/-- On a block that is batch rows 8T … 8T + 7 of a [256, 256, 1024] array, the body's result at (p, s, c) is the
    array's normalised entry at (8T + p, s, c). -/
theorem pay_block (X : K3.Idx → EReal) (x0 : FVec Ideal S8x256x1024 .f32) (T : ℕ) (hT : T < 32)
    (hx : ∀ (p : Fin 8) (s : Fin 256) (c : Fin 1024), x0 (ix3 p s c) = X (ix3 ⟨T * 8 + p.val, by omega⟩ s c))
    (p : Fin 8) (s : Fin 256) (c : Fin 1024) :
    k0_pay1 (F := Ideal) x0 (ix3 p s c) = shiftedK3 X (ix3 ⟨T * 8 + p.val, by omega⟩ s c) := by
  rw [pay_apply]
  unfold shiftedK3
  rw [hx p s c]
  refine congrArg₂ (shifted _) ?_ ?_
  · exact Finset.sum_congr rfl fun c' _ => Finset.sum_congr rfl fun s' _ => hx p s' c'
  · exact Finset.sum_congr rfl fun c' _ => Finset.sum_congr rfl fun s' _ => by rw [hx p s' c']

end Cert.KernelIdeal.Row

end
-- ==== Proof.KernelWhole.lean ====
/-
  The kernel's program, whole: the argument [256, 256, 32, 32] is viewed as [256, 256, 1024]; a grid of 32 points each
  takes 8 batch rows of the view, whole in the other two axes, normalises them and writes them to the same rows of the
  output view; the output view is seen again as [256, 256, 32, 32].

  Point t's input block is rows 8t … 8t + 7 of the view, so what it writes back is its block of the normalised view;
  the 32 blocks tile the output view (row b lies in the block of point b / 8), so after the region the output view is
  the normalised view; and the normalised view read back with four axes is the argument normalised row by row,
  because the three layouts share their row-major order.
-/
import proofs.«168734_g2000209400627767_pallasbulk_1259_4_alg».proof.Proof.Gen.KernelIdeal.Frame
import proofs.«168734_g2000209400627767_pallasbulk_1259_4_alg».proof.Proof.KernelRow
import proofs.«168734_g2000209400627767_pallasbulk_1259_4_alg».proof.Proof.RowNormArray
import Idealize.ShloMosaic.Lib.Pipeline.Value
import Idealize.ShloMosaic.Lib.StableHlo.Run

set_option maxRecDepth 16384

noncomputable section

namespace Cert.KernelIdeal.Whole

open Idealize.ShloMosaic Idealize.ShloMosaic.TcCoe Idealize.ShloMosaic.ValueIdx Idealize.SL.Sem
open Cert.KernelIdeal Cert.KernelIdeal.Gen Cert.RowNorm

variable (m : (ℓ : Loc nD τ sig) → Buf (Elt Ideal) ℓ) (ρ : Dev nD → PrngReg)

theorem offsets_zero : (![0, 0, 0] : Fin 3 → Nat) = fun _ => 0 := funext fun a => by fin_cases a <;> rfl

/-- The three-axis view as the region finds it, and a block of 8 batch rows of it, at their literal types. -/
abbrev viewArr (c : Dev nD) : FVec Ideal S256x256x1024 .f32 := V m c main_v0
abbrev viewBlk (c : Dev nD) (t : Fin cfg0.N) : FVec Ideal S8x256x1024 .f32 := iblk m c 0 t

/-- The block maps, decided over the 32 grid points: point t takes batch rows 8t … 8t + 7, whole in the other axes,
    of the input and of the output alike. -/
theorem block_index : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- Entry (p, r, c) of the input block at point t is entry (8t + p, r, c) of the view. -/
theorem viewBlk_apply (c : Dev nD) (t : Fin cfg0.N) (ht : t.val < 32) (p : Fin 8) (r : Fin 256) (q : Fin 1024) :
    viewBlk m c t (ix3 p r q) = viewArr m c (ix3 ⟨t.val * 8 + p.val, by omega⟩ r q) := by
  obtain ⟨e0, e1, e2, -, -, -⟩ := block_index t
  show V m c main_v0 (((cfg0.win 0).blk t).view.emb (ix3 p r q)) = V m c main_v0 (ix3 ⟨t.val * 8 + p.val, by omega⟩ r q)
  refine congrArg (V m c main_v0) (funext fun a => Fin.ext ?_)
  match a with
  | ⟨0, _⟩ => show win0_0.index t (0 : Fin 3) * 8 + 1 * p.val = t.val * 8 + p.val; omega
  | ⟨1, _⟩ => show win0_0.index t (1 : Fin 3) * 256 + 1 * r.val = r.val; omega
  | ⟨2, _⟩ => show win0_0.index t (2 : Fin 3) * 1024 + 1 * q.val = q.val; omega

/-- WHAT POINT t WRITES BACK is its block of the normalised view. -/
theorem flushed_eq (c : Dev nD) (t : Fin cfg0.N) :
    (dats m 0 c).flushed 1 t = ((cfg0.win 1).blk t).view.read (Elt Ideal) (shiftedK3 (viewArr m c)) := by
  have ht : t.val < 32 := lt_of_lt_of_eq t.isLt N_0
  show (cfg0.win 1).cut (grid0.coords t) ((dats m 0 c).after 1 t) = _
  rw [after0_1]
  unfold out0_1
  rw [View.canon_unit_zero offsets_zero]
  simp only [View.ld_unit_zero (S := S8x256x1024) offsets_zero]
  obtain ⟨-, -, -, e3, e4, e5⟩ := block_index t
  funext j
  obtain ⟨p, r, q, rfl⟩ : ∃ (p : Fin 8) (r : Fin 256) (q : Fin 1024), j = ix3 p r q := ⟨j 0, j 1, j 2, eq_ix3 j⟩
  show k0_pay1 (F := Ideal) (viewBlk m c t) (ix3 p r q)
    = shiftedK3 (viewArr m c) (((cfg0.win 1).blk t).view.emb (ix3 p r q))
  refine (Cert.KernelIdeal.Row.pay_block (viewArr m c) (viewBlk m c t) t.val ht (viewBlk_apply m c t ht) p r q).trans ?_
  refine congrArg (shiftedK3 (viewArr m c)) (funext fun a => Fin.ext ?_)
  match a with
  | ⟨0, _⟩ => show t.val * 8 + p.val = win0_1.index t (0 : Fin 3) * 8 + 1 * p.val; omega
  | ⟨1, _⟩ => show r.val = win0_1.index t (1 : Fin 3) * 256 + 1 * r.val; omega
  | ⟨2, _⟩ => show q.val = win0_1.index t (2 : Fin 3) * 1024 + 1 * q.val; omega

/-- An index of the output view is in point t's block iff each coordinate is in the block's range on its axis. -/
theorem mem_blk (t : Fin cfg0.N) (i : S256x256x1024.Idx) :
    i ∈ ((cfg0.win 1).blk t).view.set ↔ ∀ a : Fin 3, win0_1.index t a * S8x256x1024.size a ≤ (i a).val
      ∧ (i a).val < win0_1.index t a * S8x256x1024.size a + S8x256x1024.size a := by
  show i ∈ ((View.whole main_v1).slice (win0_1.rect t)).set ↔ _
  rw [View.set_slice_whole, Rect.mem_set_unit]
  exact Iff.rfl

/-- Every index of the output view is in the block of the point that takes its batch row. -/
theorem cover (i : S256x256x1024.Idx) :
    ∃ t : Fin cfg0.N, (cfg0.win 1).flush t = true ∧ i ∈ ((cfg0.win 1).blk t).view.set := by
  have hi0 : (i 0).val < 8 * 32 := (i 0).isLt
  have hi1 : (i 1).val < 256 := (i 1).isLt
  have hi2 : (i 2).val < 1024 := (i 2).isLt
  have hlt : (i 0).val / 8 < cfg0.N := by show _ < grid0.N; rw [N_0]; omega
  refine ⟨⟨(i 0).val / 8, hlt⟩, flush0_1 _, ?_⟩
  rw [mem_blk]
  obtain ⟨-, -, -, e3, e4, e5⟩ := block_index ⟨(i 0).val / 8, hlt⟩
  have e3' : win0_1.index ⟨(i 0).val / 8, hlt⟩ (0 : Fin 3) = (i 0).val / 8 := e3
  intro a
  match a with
  | ⟨0, _⟩ =>
    show win0_1.index _ (0 : Fin 3) * 8 ≤ (i 0).val ∧ (i 0).val < win0_1.index _ (0 : Fin 3) * 8 + 8
    rw [e3']; omega
  | ⟨1, _⟩ =>
    show win0_1.index _ (1 : Fin 3) * 256 ≤ (i 1).val ∧ (i 1).val < win0_1.index _ (1 : Fin 3) * 256 + 256
    rw [e4]; omega
  | ⟨2, _⟩ =>
    show win0_1.index _ (2 : Fin 3) * 1024 ≤ (i 2).val ∧ (i 2).val < win0_1.index _ (2 : Fin 3) * 1024 + 1024
    rw [e5]; omega

/-- The output view after the region: the input view normalised. -/
theorem final (c : Dev nD) : (dats m 0 c).arrAt 1 cfg0.N = shiftedK3 (viewArr m c) :=
  (dats m 0 c).arrAt_eq_of_cover 1 (shiftedK3 (viewArr m c)) (fun t _ => flushed_eq m c t) cover

/-- The view the region finds is the argument viewed with three axes. -/
theorem viewArr_eq (c : Dev nD) :
    viewArr m c = shapeCast S256x256x1024 (m ((c : Thread nD τ).loc main_arg0)) shapeCasts_S256x256x32x32_S256x256x1024 := by
  show StableHlo.after hostOps0 (fun b => m (c, b)) (Proc.devRef .tc main_v0) = _
  after_results
  rfl

/-- The result, the output view seen again with four axes, is the argument normalised row by row. -/
theorem result_eq (c : Dev nD) :
    Pipeline.afterTail₀ cfgs (dats m) 0 (V0 m) [hostOps1] c main_v2 = shiftedArray (m ((c : Thread nD τ).loc main_arg0)) := by
  unfold Pipeline.afterTail₀
  show StableHlo.after hostOps1 _ (Proc.devRef .tc main_v2) = _
  after_results
  have e : Pipeline.withArrays (cfgs 0).spec c (V0 m c) (fun w => (dats m 0 c).arrAt w (cfgs 0).N)
      (Proc.tc.devRef main_v1) = shiftedK3 (viewArr m c) :=
    (Pipeline.withArrays_arr spec0 launch0.win.arr_inj c _ _ 1).trans (final m c)
  rw [e, viewArr_eq]
  exact shiftedK3_cast _ _ _

/-- THE RUN, READ: every weakly fair execution ends with the result array holding the argument normalised row by row,
    and the argument unchanged. -/
theorem run : θ_run defs (onTc (τ := τ) (main (F := Ideal))) ⟨m, fun _ => 0, ρ⟩ fun r => ∀ c : Dev nD,
      r.2.mem ((c.tc : Thread nD τ).loc main_v2) = shiftedArray (m ((c.tc : Thread nD τ).loc main_arg0))
      ∧ r.2.mem ((c.tc : Thread nD τ).loc main_arg0) = m ((c.tc : Thread nD τ).loc main_arg0) :=
  (θ_run defs _ _).mono (fun _ h c =>
      ⟨((h c).2 main_v2 (Pipeline.mem_restRefs_of main_v2 (by decide) (by decide))).trans (result_eq m c),
        ((h c).2 main_arg0 (Pipeline.mem_restRefs_of main_arg0 (by decide) (by decide))).trans (W_main_arg0 m (dats m) c)⟩)
    (run_main m ρ)

end Cert.KernelIdeal.Whole

end
-- ==== Proof.ReferenceRow.lean ====
/-
  What the reference's body computes from one block of 8 batch rows, [8, 8, 32768], read at an index.

  The body sums the block over its last axis and then over its middle axis, once for the entries and once for their
  squares, keeping the summed axes as unit axes; from the two [8, 1, 1] arrays of sums it forms, per batch row, the
  mean, the clamped variance and the inverse square root, spreads the mean and the factor back over the block, and
  writes (entry − mean) · factor. Read at (p, r, q) this is the entry at (p, r, q) centred and scaled by the sums of
  batch row p of the block. When the block is rows 8T … 8T + 7 of a [256, 8, 32768] array, it is that array's
  normalised entry at (8T + p, r, q).
-/
import proofs.«168734_g2000209400627767_pallasbulk_1259_4_alg».proof.Proof.Gen.ReferenceIdeal.Skeleton
import proofs.«168734_g2000209400627767_pallasbulk_1259_4_alg».proof.Proof.RowNormArray
import Idealize.ShloMosaic.Lib.ValueIdx
import Idealize.ShloMosaic.Lib.Pipeline.Value
import Idealize.ShloMosaic.PureOps.Ideal.Laws

noncomputable section

namespace Cert.ReferenceIdeal.Row

open Idealize.ShloMosaic Idealize.ShloMosaic.ValueIdx Cert.ReferenceIdeal Cert.ReferenceIdeal.Gen Cert.RowNorm

/-- The sum over the last axis of an [8, 8, 32768] block, read at (p, r). -/
theorem sum_last (v : FVec Ideal S8x8x32768 .f32) (h : S8x8x32768.Reduces [2] S8x8) (hφ : FKind.Formats .f32)
    (hacc : (0x00000000#32 : BitVec 32) = FKind.add.neutral .f32 hφ) (p : Fin 8) (r : Fin 8) :
    multiReduction .add [2] S8x8 v 0x00000000#32 h hφ hacc (ix2 p r) = ∑ q : Fin 32768, v (ix3 p r q) := by
  refine (Ideal.multiReduction_add_single v _ h hφ hacc (ix2 p r)).trans ?_
  refine Finset.sum_congr rfl fun q _ => congrArg v ?_
  funext a
  match a with
  | ⟨0, _⟩ => rfl
  | ⟨1, _⟩ => rfl
  | ⟨2, _⟩ => rfl

/-- An [8, 8] array viewed as [8, 8, 1] reads (p, r) at (p, r, 0). -/
theorem cast_last (v : FVec Ideal S8x8 .f32) (h : S8x8.ShapeCasts S8x8x1) (p : Fin 8) (r : Fin 8) :
    shapeCast S8x8x1 v h (ix3 p r 0) = v (ix2 p r) := by
  refine shapeCast_apply v h (ix3 p r 0) (ix2 p r) ?_
  rw [Shape.rowMajor_val_two, Shape.rowMajor_val_three]
  show p.val * 8 + r.val = (p.val * 8 + r.val) * 1 + 0
  omega

/-- The sum over the middle axis of an [8, 8, 1] array, read at (p, 0). -/
theorem sum_mid (v : FVec Ideal S8x8x1 .f32) (h : S8x8x1.Reduces [1] S8x1) (hφ : FKind.Formats .f32)
    (hacc : (0x00000000#32 : BitVec 32) = FKind.add.neutral .f32 hφ) (p : Fin 8) :
    multiReduction .add [1] S8x1 v 0x00000000#32 h hφ hacc (ix2 p 0) = ∑ r : Fin 8, v (ix3 p r 0) := by
  refine (Ideal.multiReduction_add_single v _ h hφ hacc (ix2 p 0)).trans ?_
  refine Finset.sum_congr rfl fun r _ => congrArg v ?_
  funext a
  match a with
  | ⟨0, _⟩ => rfl
  | ⟨1, _⟩ => rfl
  | ⟨2, _⟩ => rfl

/-- An [8, 1] array viewed as [8, 1, 1] reads (p, 0) at every index whose first coordinate is p. -/
theorem cast_unit (v : FVec Ideal S8x1 .f32) (h : S8x1.ShapeCasts S8x1x1) (j : S8x1x1.Idx) :
    shapeCast S8x1x1 v h j = v (ix2 (j 0) 0) := by
  refine shapeCast_apply v h j (ix2 (j 0) 0) ?_
  rw [Shape.rowMajor_val_two, Shape.rowMajor_val_three]
  have h1 : (j 1).val < 1 := (j 1).isLt
  have h2 : (j 2).val < 1 := (j 2).isLt
  show (j 0).val * 1 + 0 = ((j 0).val * 1 + (j 1).val) * 1 + (j 2).val
  omega

/-- The sum over the middle axis of the sums over the last axis, kept as an [8, 1, 1] array: at an index whose first
    coordinate is p it is the sum of the block's entries (p, r, q) over all r and q. -/
theorem stat_apply (v : FVec Ideal S8x8x32768 .f32) (h1 : S8x8x32768.Reduces [2] S8x8) (hφ1 : FKind.Formats .f32)
    (hacc1 : (0x00000000#32 : BitVec 32) = FKind.add.neutral .f32 hφ1) (h2 : S8x8.ShapeCasts S8x8x1)
    (h3 : S8x8x1.Reduces [1] S8x1) (hφ3 : FKind.Formats .f32)
    (hacc3 : (0x00000000#32 : BitVec 32) = FKind.add.neutral .f32 hφ3) (h4 : S8x1.ShapeCasts S8x1x1) (j : S8x1x1.Idx) :
    shapeCast S8x1x1 (multiReduction .add [1] S8x1 (shapeCast S8x8x1
        (multiReduction .add [2] S8x8 v 0x00000000#32 h1 hφ1 hacc1) h2) 0x00000000#32 h3 hφ3 hacc3) h4 j
      = ∑ r : Fin 8, ∑ q : Fin 32768, v (ix3 (j 0) r q) := by
  refine (cast_unit _ h4 j).trans ?_
  refine (sum_mid _ h3 hφ3 hacc3 (j 0)).trans ?_
  refine Finset.sum_congr rfl fun r _ => ?_
  refine (cast_last _ h2 (j 0) r).trans ?_
  exact sum_last v h1 hφ1 hacc1 (j 0) r

/-- An [8, 1, 1] array spread over [8, 8, 32768] reads (p, 0, 0) at (p, r, q). -/
theorem spread_apply (v : FVec Ideal S8x1x1 .f32) (h : S8x1x1.Broadcasts S8x8x32768) (p : Fin 8) (r : Fin 8) (q : Fin 32768) :
    broadcastTo S8x8x32768 v h (ix3 p r q) = v (ix3 p 0 0) :=
  broadcastTo_apply v h (ix3 p r q) (ix3 p 0 0) (by
    intro a
    match a with
    | ⟨0, _⟩ => rfl
    | ⟨1, _⟩ => rfl
    | ⟨2, _⟩ => rfl)

/-- From an entry and the two [8, 1, 1] arrays of sums, the body's last steps at batch row p: the entry minus the mean,
    times the inverse square root of the clamped variance plus ε. -/
theorem combine_apply (a : EReal) (S Q : FVec Ideal S8x1x1 .f32) (p : Fin 8) :
    (a - mulf S (broadcast S8x1x1 (FloatOps.ofBits FTy.f32 0x36800000#32)) (ix3 p 0 0)) *
      rsqrt (addf (maximumf (subf (mulf Q (broadcast S8x1x1 (FloatOps.ofBits FTy.f32 0x36800000#32)))
              (mulf (mulf S (broadcast S8x1x1 (FloatOps.ofBits FTy.f32 0x36800000#32)))
                (mulf S (broadcast S8x1x1 (FloatOps.ofBits FTy.f32 0x36800000#32)))))
            (broadcast S8x1x1 (FloatOps.ofBits FTy.f32 0x00000000#32)))
          (broadcast S8x1x1 (FloatOps.ofBits FTy.f32 0x3727C5AC#32))) (ix3 p 0 0)
      = centred a (S (ix3 p 0 0)) (Q (ix3 p 0 0)) := rfl

set_option backward.isDefEq.respectTransparency.types false in
/-- The body's result at (p, r, q): the entry there, centred and scaled by the sum and the sum of squares of the
    block's batch row p. -/
theorem pay_apply (x0 : FVec Ideal S8x8x32768 .f32) (p : Fin 8) (r : Fin 8) (q : Fin 32768) :
    k0_pay1 (F := Ideal) x0 (ix3 p r q)
      = centred (x0 (ix3 p r q)) (∑ r' : Fin 8, ∑ q' : Fin 32768, x0 (ix3 p r' q'))
          (∑ r' : Fin 8, ∑ q' : Fin 32768, x0 (ix3 p r' q') * x0 (ix3 p r' q')) := by
  unfold k0_pay1
  dsimp only
  simp only [shapeCast_self]
  rw [funext (stat_apply x0 _ _ _ _ _ _ _ _), funext (stat_apply (mulf x0 x0) _ _ _ _ _ _ _ _)]
  rw [mulf_apply, subf_apply, spread_apply, spread_apply]
  exact (combine_apply _ _ _ p).trans (congrArg₂ (centred _) rfl rfl)

/-- On a block that is batch rows 8T … 8T + 7 of a [256, 8, 32768] array, the body's result at (p, r, q) is the
    array's normalised entry at (8T + p, r, q). -/
theorem pay_block (X : R3.Idx → EReal) (x0 : FVec Ideal S8x8x32768 .f32) (T : ℕ) (hT : T < 32)
    (hx : ∀ (p : Fin 8) (r : Fin 8) (q : Fin 32768), x0 (ix3 p r q) = X (ix3 ⟨T * 8 + p.val, by omega⟩ r q))
    (p : Fin 8) (r : Fin 8) (q : Fin 32768) :
    k0_pay1 (F := Ideal) x0 (ix3 p r q) = centredR3 X (ix3 ⟨T * 8 + p.val, by omega⟩ r q) := by
  rw [pay_apply]
  unfold centredR3
  rw [hx p r q]
  refine congrArg₂ (centred _) ?_ ?_
  · exact Finset.sum_congr rfl fun r' _ => Finset.sum_congr rfl fun q' _ => hx p r' q'
  · exact Finset.sum_congr rfl fun r' _ => Finset.sum_congr rfl fun q' _ => by rw [hx p r' q']

end Cert.ReferenceIdeal.Row

end
-- ==== Proof.ReferenceWhole.lean ====
/-
  The reference's program, whole: the argument [256, 256, 32, 32] is viewed as [256, 8, 32768]; a grid of 32 points each
  takes 8 batch rows of the view, whole in the other two axes, normalises them and writes them to the same rows of the
  output view; the output view is seen again as [256, 256, 32, 32].

  Point t's input block is rows 8t … 8t + 7 of the view, so what it writes back is its block of the normalised view;
  the 32 blocks tile the output view (row b lies in the block of point b / 8), so after the region the output view is
  the normalised view; and the normalised view read back with four axes is the argument normalised row by row,
  because the three layouts share their row-major order.
-/
import proofs.«168734_g2000209400627767_pallasbulk_1259_4_alg».proof.Proof.Gen.ReferenceIdeal.Frame
import proofs.«168734_g2000209400627767_pallasbulk_1259_4_alg».proof.Proof.ReferenceRow
import proofs.«168734_g2000209400627767_pallasbulk_1259_4_alg».proof.Proof.RowNormArray
import Idealize.ShloMosaic.Lib.Pipeline.Value
import Idealize.ShloMosaic.Lib.StableHlo.Run

set_option maxRecDepth 16384

noncomputable section

namespace Cert.ReferenceIdeal.Whole

open Idealize.ShloMosaic Idealize.ShloMosaic.TcCoe Idealize.ShloMosaic.ValueIdx Idealize.SL.Sem
open Cert.ReferenceIdeal Cert.ReferenceIdeal.Gen Cert.RowNorm

variable (m : (ℓ : Loc nD τ sig) → Buf (Elt Ideal) ℓ) (ρ : Dev nD → PrngReg)

theorem offsets_zero : (![0, 0, 0] : Fin 3 → Nat) = fun _ => 0 := funext fun a => by fin_cases a <;> rfl

/-- The three-axis view as the region finds it, and a block of 8 batch rows of it, at their literal types. -/
abbrev viewArr (c : Dev nD) : FVec Ideal S256x8x32768 .f32 := V m c main_v0
abbrev viewBlk (c : Dev nD) (t : Fin cfg0.N) : FVec Ideal S8x8x32768 .f32 := iblk m c 0 t

/-- The block maps, decided over the 32 grid points: point t takes batch rows 8t … 8t + 7, whole in the other axes,
    of the input and of the output alike. -/
theorem block_index : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- Entry (p, r, c) of the input block at point t is entry (8t + p, r, c) of the view. -/
theorem viewBlk_apply (c : Dev nD) (t : Fin cfg0.N) (ht : t.val < 32) (p : Fin 8) (r : Fin 8) (q : Fin 32768) :
    viewBlk m c t (ix3 p r q) = viewArr m c (ix3 ⟨t.val * 8 + p.val, by omega⟩ r q) := by
  obtain ⟨e0, e1, e2, -, -, -⟩ := block_index t
  show V m c main_v0 (((cfg0.win 0).blk t).view.emb (ix3 p r q)) = V m c main_v0 (ix3 ⟨t.val * 8 + p.val, by omega⟩ r q)
  refine congrArg (V m c main_v0) (funext fun a => Fin.ext ?_)
  match a with
  | ⟨0, _⟩ => show win0_0.index t (0 : Fin 3) * 8 + 1 * p.val = t.val * 8 + p.val; omega
  | ⟨1, _⟩ => show win0_0.index t (1 : Fin 3) * 8 + 1 * r.val = r.val; omega
  | ⟨2, _⟩ => show win0_0.index t (2 : Fin 3) * 32768 + 1 * q.val = q.val; omega

/-- WHAT POINT t WRITES BACK is its block of the normalised view. -/
theorem flushed_eq (c : Dev nD) (t : Fin cfg0.N) :
    (dats m 0 c).flushed 1 t = ((cfg0.win 1).blk t).view.read (Elt Ideal) (centredR3 (viewArr m c)) := by
  have ht : t.val < 32 := lt_of_lt_of_eq t.isLt N_0
  show (cfg0.win 1).cut (grid0.coords t) ((dats m 0 c).after 1 t) = _
  rw [after0_1]
  unfold out0_1
  rw [View.canon_unit_zero offsets_zero]
  simp only [View.ld_unit_zero (S := S8x8x32768) offsets_zero]
  obtain ⟨-, -, -, e3, e4, e5⟩ := block_index t
  funext j
  obtain ⟨p, r, q, rfl⟩ : ∃ (p : Fin 8) (r : Fin 8) (q : Fin 32768), j = ix3 p r q := ⟨j 0, j 1, j 2, eq_ix3 j⟩
  show k0_pay1 (F := Ideal) (viewBlk m c t) (ix3 p r q)
    = centredR3 (viewArr m c) (((cfg0.win 1).blk t).view.emb (ix3 p r q))
  refine (Cert.ReferenceIdeal.Row.pay_block (viewArr m c) (viewBlk m c t) t.val ht (viewBlk_apply m c t ht) p r q).trans ?_
  refine congrArg (centredR3 (viewArr m c)) (funext fun a => Fin.ext ?_)
  match a with
  | ⟨0, _⟩ => show t.val * 8 + p.val = win0_1.index t (0 : Fin 3) * 8 + 1 * p.val; omega
  | ⟨1, _⟩ => show r.val = win0_1.index t (1 : Fin 3) * 8 + 1 * r.val; omega
  | ⟨2, _⟩ => show q.val = win0_1.index t (2 : Fin 3) * 32768 + 1 * q.val; omega

/-- An index of the output view is in point t's block iff each coordinate is in the block's range on its axis. -/
theorem mem_blk (t : Fin cfg0.N) (i : S256x8x32768.Idx) :
    i ∈ ((cfg0.win 1).blk t).view.set ↔ ∀ a : Fin 3, win0_1.index t a * S8x8x32768.size a ≤ (i a).val
      ∧ (i a).val < win0_1.index t a * S8x8x32768.size a + S8x8x32768.size a := by
  show i ∈ ((View.whole main_v1).slice (win0_1.rect t)).set ↔ _
  rw [View.set_slice_whole, Rect.mem_set_unit]
  exact Iff.rfl

/-- Every index of the output view is in the block of the point that takes its batch row. -/
theorem cover (i : S256x8x32768.Idx) :
    ∃ t : Fin cfg0.N, (cfg0.win 1).flush t = true ∧ i ∈ ((cfg0.win 1).blk t).view.set := by
  have hi0 : (i 0).val < 8 * 32 := (i 0).isLt
  have hi1 : (i 1).val < 8 := (i 1).isLt
  have hi2 : (i 2).val < 32768 := (i 2).isLt
  have hlt : (i 0).val / 8 < cfg0.N := by show _ < grid0.N; rw [N_0]; omega
  refine ⟨⟨(i 0).val / 8, hlt⟩, flush0_1 _, ?_⟩
  rw [mem_blk]
  obtain ⟨-, -, -, e3, e4, e5⟩ := block_index ⟨(i 0).val / 8, hlt⟩
  have e3' : win0_1.index ⟨(i 0).val / 8, hlt⟩ (0 : Fin 3) = (i 0).val / 8 := e3
  intro a
  match a with
  | ⟨0, _⟩ =>
    show win0_1.index _ (0 : Fin 3) * 8 ≤ (i 0).val ∧ (i 0).val < win0_1.index _ (0 : Fin 3) * 8 + 8
    rw [e3']; omega
  | ⟨1, _⟩ =>
    show win0_1.index _ (1 : Fin 3) * 8 ≤ (i 1).val ∧ (i 1).val < win0_1.index _ (1 : Fin 3) * 8 + 8
    rw [e4]; omega
  | ⟨2, _⟩ =>
    show win0_1.index _ (2 : Fin 3) * 32768 ≤ (i 2).val ∧ (i 2).val < win0_1.index _ (2 : Fin 3) * 32768 + 32768
    rw [e5]; omega

/-- The output view after the region: the input view normalised. -/
theorem final (c : Dev nD) : (dats m 0 c).arrAt 1 cfg0.N = centredR3 (viewArr m c) :=
  (dats m 0 c).arrAt_eq_of_cover 1 (centredR3 (viewArr m c)) (fun t _ => flushed_eq m c t) cover

/-- The view the region finds is the argument viewed with three axes. -/
theorem viewArr_eq (c : Dev nD) :
    viewArr m c = shapeCast S256x8x32768 (m ((c : Thread nD τ).loc main_arg0)) shapeCasts_S256x256x32x32_S256x8x32768 := by
  show StableHlo.after hostOps0 (fun b => m (c, b)) (Proc.devRef .tc main_v0) = _
  after_results
  rfl

/-- The result, the output view seen again with four axes, is the argument normalised row by row. -/
theorem result_eq (c : Dev nD) :
    Pipeline.afterTail₀ cfgs (dats m) 0 (V0 m) [hostOps1] c main_v2 = centredArray (m ((c : Thread nD τ).loc main_arg0)) := by
  unfold Pipeline.afterTail₀
  show StableHlo.after hostOps1 _ (Proc.devRef .tc main_v2) = _
  after_results
  have e : Pipeline.withArrays (cfgs 0).spec c (V0 m c) (fun w => (dats m 0 c).arrAt w (cfgs 0).N)
      (Proc.tc.devRef main_v1) = centredR3 (viewArr m c) :=
    (Pipeline.withArrays_arr spec0 launch0.win.arr_inj c _ _ 1).trans (final m c)
  rw [e, viewArr_eq]
  exact centredR3_cast _ _ _

/-- THE RUN, READ: every weakly fair execution ends with the result array holding the argument normalised row by row,
    and the argument unchanged. -/
theorem run : θ_run defs (onTc (τ := τ) (main (F := Ideal))) ⟨m, fun _ => 0, ρ⟩ fun r => ∀ c : Dev nD,
      r.2.mem ((c.tc : Thread nD τ).loc main_v2) = centredArray (m ((c.tc : Thread nD τ).loc main_arg0))
      ∧ r.2.mem ((c.tc : Thread nD τ).loc main_arg0) = m ((c.tc : Thread nD τ).loc main_arg0) :=
  (θ_run defs _ _).mono (fun _ h c =>
      ⟨((h c).2 main_v2 (Pipeline.mem_restRefs_of main_v2 (by decide) (by decide))).trans (result_eq m c),
        ((h c).2 main_arg0 (Pipeline.mem_restRefs_of main_arg0 (by decide) (by decide))).trans (W_main_arg0 m (dats m) c)⟩)
    (run_main m ρ)

end Cert.ReferenceIdeal.Whole

end
-- ==== Proof.LibFinite.lean ====
/-
  "Every entry is finite", read back from the printed test, for an array of any shape.

  The precondition tests an array by `all (|x| < +inf)`: the absolute value entry by entry, compared with the
  pattern of plus infinity, and the one-bit answers folded by `and` into a single bit. If that bit is one, every
  entry's comparison came out one, so `max x (-x)` is below the top element: `x` is neither infinity, that is, `x`
  is a coerced real.
-/
import Idealize.ShloMosaic.PureOps.Ideal
import Idealize.ShloMosaic.Lib.ValueIdx
import Idealize.ShloMosaic.Lib.ReduceAll

noncomputable section

namespace Cert.LibFinite

open Idealize.ShloMosaic Idealize.ShloMosaic.ValueIdx

/-- The pattern `0x7F800000` denotes the top element. -/
theorem ofBits_inf : Ideal.ofBits .f32 0x7F800000#32 = (⊤ : EReal) := by
  simp [Ideal.ofBits, Ideal.ieee]

/-- An extended real whose absolute value compares below plus infinity is a coerced real. -/
theorem real_of_abs_lt_inf (x : EReal) (h : Ideal.cmp .olt (max x (-x)) (Ideal.ofBits .f32 0x7F800000#32) = 1#1) :
    ∃ r : ℝ, x = (r : EReal) := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- The scalar shape has one index. -/
instance : Subsingleton (⟨0, ![]⟩ : Shape).Idx := ⟨fun a b => funext fun d => d.elim0⟩

/-- If the test `all (|x| < +inf)` of an array answers one, every entry of the array is a coerced real. -/
theorem real_of_all {s : Shape} {axes : List (Fin s.rank)} (x : FVec Ideal s .f32)
    (bc : (⟨0, ![]⟩ : Shape).BroadcastsInDim s (![] : Fin 0 → Fin s.rank)) (h : s.ReducesTo axes ⟨0, ![]⟩)
    (hu : 0 < (⟨0, ![]⟩ : Shape).numel)
    (e : Host.reduce IntOp.andi (cmpf .olt (Host.absf x) (broadcastInDim s ![] bc (constant ⟨0, ![]⟩ .f32 0x7F800000#32)))
      (constantI ⟨0, ![]⟩ 1 1#1) h hu ix0 = 1#1) (i : s.Idx) : ∃ r : ℝ, x i = (r : EReal) :=
  real_of_abs_lt_inf (x i) (Host.reduce_andi_all _ _ h hu ix0 e i)

end Cert.LibFinite

end
-- ==== Proof.FiniteInputs.lean ====
/-
  The precondition, read back: the test `all (|x| < +inf)` of the argument answers one, so every entry of the
  argument is a real number.
-/
import proofs.«168734_g2000209400627767_pallasbulk_1259_4_alg».proof.Proof.Gen.Pre_finite_inputs
import proofs.«168734_g2000209400627767_pallasbulk_1259_4_alg».proof.Proof.LibFinite

noncomputable section

namespace Cert.FiniteInputs

open Idealize.ShloMosaic Idealize.ShloMosaic.ValueIdx Cert.Pre_finite_inputs

/-- If the printed test of the argument is all ones, every entry of the argument is a real number. -/
theorem real_of_pre (x : FVec Ideal S256x256x32x32 .f32) (h : Cert.Pre_finite_inputs.fn (F := Ideal) x = fun _ => 1#1)
    (i : S256x256x32x32.Idx) : ∃ r : ℝ, x i = (r : EReal) :=
  Cert.LibFinite.real_of_all x Facts.bcast_S_S256x256x32x32 Facts.reducesTo_S256x256x32x32_S_d0_1_2_3 Facts.h_S_
    (congrFun h ix0) i

end Cert.FiniteInputs

end
-- ==== Proof.lean ====
/-
  Layer normalisation over all non-batch axes of a [256, 256, 32, 32] array, two ways.

  Both programs view the argument with three axes in the same row-major order, cut the 256 batch rows into 32 blocks of
  8, and normalise each batch row by its own mean and variance over its 262144 entries. The kernel views a row as
  256 × 1024, sums the middle axis and then the last, and writes entry · f + (0 − μ) · f; the reference views it as
  8 × 32768, sums the last axis and then the middle, and writes (entry − μ) · f; in both μ = S · 2⁻¹⁸ and
  f = (max (Q · 2⁻¹⁸ − μ²) 0 + ε)^(-1/2), with S the row's sum, Q its sum of squares, and the same patterns for 2⁻¹⁸,
  0 and ε.

  On the extended reals the two orders of summation give the same S and Q for any entries (addition is commutative and
  associative). The last step differs by a distributive law, which holds because the precondition makes every entry
  a real number: then S, Q and μ are real, the clamped variance plus ε is a positive real, f is real, and
  a · f + (0 − μ) · f = (a − μ) · f in the reals.

  The three frames are the generated ones; the ideal pass rewrote nothing, so `preserves` is trivial.
-/
import proofs.«168734_g2000209400627767_pallasbulk_1259_4_alg».proof.Defs
import proofs.«168734_g2000209400627767_pallasbulk_1259_4_alg».proof.Proof.Gen.Kernel
import proofs.«168734_g2000209400627767_pallasbulk_1259_4_alg».proof.Proof.Gen.Kernel.Skeleton
import proofs.«168734_g2000209400627767_pallasbulk_1259_4_alg».proof.Proof.Gen.Kernel.Launch
import proofs.«168734_g2000209400627767_pallasbulk_1259_4_alg».proof.Proof.Gen.Kernel.Points
import proofs.«168734_g2000209400627767_pallasbulk_1259_4_alg».proof.Proof.Gen.Kernel.Frame
import proofs.«168734_g2000209400627767_pallasbulk_1259_4_alg».proof.Proof.Gen.KernelIdeal
import proofs.«168734_g2000209400627767_pallasbulk_1259_4_alg».proof.Proof.Gen.KernelIdeal.Skeleton
import proofs.«168734_g2000209400627767_pallasbulk_1259_4_alg».proof.Proof.Gen.KernelIdeal.Launch
import proofs.«168734_g2000209400627767_pallasbulk_1259_4_alg».proof.Proof.Gen.KernelIdeal.Points
import proofs.«168734_g2000209400627767_pallasbulk_1259_4_alg».proof.Proof.Gen.KernelIdeal.Frame
import proofs.«168734_g2000209400627767_pallasbulk_1259_4_alg».proof.Proof.Gen.ReferenceIdeal
import proofs.«168734_g2000209400627767_pallasbulk_1259_4_alg».proof.Proof.Gen.ReferenceIdeal.Skeleton
import proofs.«168734_g2000209400627767_pallasbulk_1259_4_alg».proof.Proof.Gen.ReferenceIdeal.Launch
import proofs.«168734_g2000209400627767_pallasbulk_1259_4_alg».proof.Proof.Gen.ReferenceIdeal.Points
import proofs.«168734_g2000209400627767_pallasbulk_1259_4_alg».proof.Proof.Gen.ReferenceIdeal.Frame
import proofs.«168734_g2000209400627767_pallasbulk_1259_4_alg».proof.Proof.Gen.Pre_finite_inputs
import proofs.«168734_g2000209400627767_pallasbulk_1259_4_alg».proof.Proof.KernelWhole
import proofs.«168734_g2000209400627767_pallasbulk_1259_4_alg».proof.Proof.ReferenceWhole
import proofs.«168734_g2000209400627767_pallasbulk_1259_4_alg».proof.Proof.FiniteInputs
import Idealize.ShloMosaic.Adequacy
import Idealize.ShloMosaic.Init

noncomputable section

namespace Cert.Proof

open Idealize.ShloMosaic Idealize.SL.Sem

/-- Both programs, run from memories that agree on the argument, end with the argument normalised row by row: the
    kernel in the scale-then-shift form, the reference in the centre-then-scale form, equal because every entry of the
    argument is real. -/
theorem algebraic : Cert.algebraic_KernelIdeal_ReferenceIdeal := by
  intro m ρ m' ρ' hpre hagree
  refine ⟨fun c => Cert.RowNorm.centredArray (m ((c.tc : Thread Cert.KernelIdeal.nD Cert.KernelIdeal.τ).loc Cert.KernelIdeal.main_arg0)), ?_, ?_⟩
  · refine (θ_run Cert.KernelIdeal.defs _ _).mono (fun _ h c => ⟨(h c).1.trans ?_, (h c).2⟩)
      (Cert.KernelIdeal.Whole.run m ρ)
    exact Cert.RowNorm.shiftedArray_eq_centredArray _ (Cert.FiniteInputs.real_of_pre _ (hpre c))
  · refine (θ_run Cert.ReferenceIdeal.defs _ _).mono (fun _ h c => ⟨(h c).1.trans ?_, (h c).2⟩)
      (Cert.ReferenceIdeal.Whole.run m' ρ')
    rw [hagree c]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
